-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S4096x4096 : Shape := ⟨2, ![4096, 4096]⟩
abbrev S4096 : Shape := ⟨1, ![4096]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2x4096x4096 .f32) (main_arg1 : FVec F S4096x4096 .f32) (main_arg2 : FVec F S4096 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S2x4096x4096 : Shape := ⟨3, ![2, 4096, 4096]⟩
abbrev S4096x4096 : Shape := ⟨2, ![4096, 4096]⟩
abbrev S4096 : Shape := ⟨1, ![4096]⟩
abbrev S8 : Shape := ⟨1, ![8]⟩
abbrev S1x8 : Shape := ⟨2, ![1, 8]⟩
abbrev S512x8 : Shape := ⟨2, ![512, 8]⟩
abbrev S1x4096 : Shape := ⟨2, ![1, 4096]⟩
abbrev S8192x4096 : Shape := ⟨2, ![8192, 4096]⟩
abbrev S512x4096 : Shape := ⟨2, ![512, 4096]⟩
abbrev S4096x512 : Shape := ⟨2, ![4096, 512]⟩
abbrev S1x512 : Shape := ⟨2, ![1, 512]⟩
abbrev S512x512 : Shape := ⟨2, ![512, 512]⟩

abbrev nBuf : Space → Nat
  | .hbm => 16
  | .vmem => 8
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S4096, .f32⟩
  | .hbm, ⟨3, _⟩ => ⟨S8, .f32⟩
  | .hbm, ⟨4, _⟩ => ⟨S1x8, .f32⟩
  | .hbm, ⟨5, _⟩ => ⟨S512x8, .f32⟩
  | .hbm, ⟨6, _⟩ => ⟨S4096, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .bf16⟩
  | .hbm, ⟨12, _⟩ => ⟨S8192x4096, .f32⟩
  | .hbm, ⟨13, _⟩ => ⟨S1x4096, .f32⟩
  | .hbm, ⟨14, _⟩ => ⟨S8192x4096, .f32⟩
  | .hbm, ⟨15, _⟩ => ⟨S2x4096x4096, .f32⟩
  | .local _ .vmem, ⟨0, _⟩ => ⟨S512x4096, .f32⟩
  | .local _ .vmem, ⟨1, _⟩ => ⟨S512x4096, .f32⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8_S1x8 : S8.ShapeCasts S1x8
  bcast_S1x8_S512x8_0_1 : S1x8.BroadcastsInDim S512x8 (![0, 1] : Fin 2 → Fin S512x8.rank)
  shapeCasts_S512x8_S4096 : S512x8.ShapeCasts S4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  transposes_S4096x4096_S4096x4096_1_0 : S4096x4096.Transposes [1, 0] S4096x4096
  bitsLt_bf16_f32 : FTy.bits .bf16 < FTy.bits .f32
  shapeCasts_S2x4096x4096_S8192x4096 : S2x4096x4096.ShapeCasts S8192x4096
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S8192x4096_S2x4096x4096 : S8192x4096.ShapeCasts S2x4096x4096
  dot_S512x4096_S4096x512_S512x512_1_0_0_1_n_n_wf : DotDims.WF S512x4096 S4096x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .bf16 = 32 ∨ (Rect.block (s := S4096x4096) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S8192x4096.size a
  hwx0_3 : ∀ i : grid0.Coords, EltTy.bits .f32 = 32 ∨ (Rect.block (s := S8192x4096) S512x512.size (cc0_transform_3 i) (hinb0_3 i)).WholeWords (EltTy.packing .f32)

variable [Facts₀]

def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf

abbrev win0_0 : Pipeline.Window sig grid0 :=
  Pipeline.Window.ofSpec (Memref.whole main_v8) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x4096x4096 : Shape := ⟨3, ![2, 4096, 4096]⟩
abbrev S4096x4096 : Shape := ⟨2, ![4096, 4096]⟩
abbrev S4096 : Shape := ⟨1, ![4096]⟩
abbrev S8 : Shape := ⟨1, ![8]⟩
abbrev S1x8 : Shape := ⟨2, ![1, 8]⟩
abbrev S512x8 : Shape := ⟨2, ![512, 8]⟩
abbrev S1x4096 : Shape := ⟨2, ![1, 4096]⟩
abbrev S1x1x4096 : Shape := ⟨3, ![1, 1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S4096, .f32⟩
  | .hbm, ⟨3, _⟩ => ⟨S8, .f32⟩
  | .hbm, ⟨4, _⟩ => ⟨S1x8, .f32⟩
  | .hbm, ⟨5, _⟩ => ⟨S512x8, .f32⟩
  | .hbm, ⟨6, _⟩ => ⟨S4096, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S2x4096x4096, .f32⟩
  | .hbm, ⟨11, _⟩ => ⟨S1x1x4096, .f32⟩
  | .hbm, ⟨12, _⟩ => ⟨S2x4096x4096, .f32⟩
  | .hbm, ⟨13, _⟩ => ⟨S2x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  shapeCasts_S8_S1x8 : S8.ShapeCasts S1x8
  bcast_S1x8_S512x8_0_1 : S1x8.BroadcastsInDim S512x8 (![0, 1] : Fin 2 → Fin S512x8.rank)
  shapeCasts_S512x8_S4096 : S512x8.ShapeCasts S4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S2x4096x4096_0_1_2 : S1x1x4096.BroadcastsInDim S2x4096x4096 (![0, 1, 2] : Fin 3 → Fin S2x4096x4096.rank)
  dot_S2x4096x4096_S4096x4096_S2x4096x4096_2_1_01_0_n_n_wf : DotDims.WF S2x4096x4096 S4096x4096 S2x4096x4096 [2] [1] [0, 1] [0] [] []

variable [Facts₀]

def dot_S2x4096x4096_S4096x4096_S2x4096x4096_2_1_01_0_n_n : DotDims S2x4096x4096 S4096x4096 S2x4096x4096 where
  lhsContracting := [2]
  rhsContracting := [1]
  lhsNonContracting := [0, 1]
  rhsNonContracting := [0]
  lhsBatch := []
  rhsBatch := []
  wf := dot_S2x4096x4096_S4096x4096_S2x4096x4096_2_1_01_0_n_n_wf

class Facts : Prop extends Facts₀ where

variable [Facts]
-- ==== Proof.RefRun.lean ====
/-
  The reference program's run, read back: its @main is eleven host operations in a row, so every weakly fair
  execution ends with the result buffer holding the operations' composed term of the three arguments, and the
  arguments unchanged. The term: the eight-entry pattern (1, 0, 1, 0, 0, 0, 0, 0) repeated 512 times along the
  columns and copied down the rows is the mask; the weight is multiplied by it entry by entry; `x` is contracted
  with the masked weight over the last axis of each; the bias is added along the last axis.
-/
import proofs.«157201_j49443663512204_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- @main's 11 operations, in order. -/
abbrev ops : List (HloOp τ sig (Elt F)) :=
  [ nullary main_cst (fun i => FloatOps.ofBits .f32 (lit0 (S8.rowMajor i))),
    reshape main_cst main_v0 rfl shapeCasts_S8_S1x8,
    unary main_v0 main_v1 (broadcastInDim S512x8 ![0, 1] bcast_S1x8_S512x8_0_1 : (⟨S1x8, .f32⟩ : BufTy).Contents (Elt F) → (⟨S512x8, .f32⟩ : BufTy).Contents (Elt F)),
    reshape main_v1 main_v2 rfl shapeCasts_S512x8_S4096,
    unary main_v2 main_v3 (broadcastInDim S1x4096 ![1] bcast_S4096_S1x4096_1 : (⟨S4096, .f32⟩ : BufTy).Contents (Elt F) → (⟨S1x4096, .f32⟩ : BufTy).Contents (Elt F)),
    unary main_v3 main_v4 (broadcastInDim S4096x4096 ![0, 1] bcast_S1x4096_S4096x4096_0_1 : (⟨S1x4096, .f32⟩ : BufTy).Contents (Elt F) → (⟨S4096x4096, .f32⟩ : BufTy).Contents (Elt F)),
    binary main_arg1 main_v4 main_v5 (mulf : (⟨S4096x4096, .f32⟩ : BufTy).Contents (Elt F) → (⟨S4096x4096, .f32⟩ : BufTy).Contents (Elt F) → (⟨S4096x4096, .f32⟩ : BufTy).Contents (Elt F)),
    binary main_arg0 main_v5 main_v6 ((fun l r => Host.dotGeneral dot_S2x4096x4096_S4096x4096_S2x4096x4096_2_1_01_0_n_n none l r) : (⟨S2x4096x4096, .f32⟩ : BufTy).Contents (Elt F) → (⟨S4096x4096, .f32⟩ : BufTy).Contents (Elt F) → (⟨S2x4096x4096, .f32⟩ : BufTy).Contents (Elt F)),
    unary main_arg2 main_v7 (broadcastInDim S1x1x4096 ![2] bcast_S4096_S1x1x4096_2 : (⟨S4096, .f32⟩ : BufTy).Contents (Elt F) → (⟨S1x1x4096, .f32⟩ : BufTy).Contents (Elt F)),
    unary main_v7 main_v8 (broadcastInDim S2x4096x4096 ![0, 1, 2] bcast_S1x1x4096_S2x4096x4096_0_1_2 : (⟨S1x1x4096, .f32⟩ : BufTy).Contents (Elt F) → (⟨S2x4096x4096, .f32⟩ : BufTy).Contents (Elt F)),
    binary main_v6 main_v8 main_v9 (addf : (⟨S2x4096x4096, .f32⟩ : BufTy).Contents (Elt F) → (⟨S2x4096x4096, .f32⟩ : BufTy).Contents (Elt F) → (⟨S2x4096x4096, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., reshape_bufs_sub .., unary_bufs_sub .., reshape_bufs_sub .., unary_bufs_sub .., unary_bufs_sub .., binary_bufs_sub .., binary_bufs_sub .., unary_bufs_sub .., unary_bufs_sub .., binary_bufs_sub ..⟩

/-- The mask: the eight-entry pattern laid 512 times along the columns, the same in every row. -/
def mask : FVec F S4096x4096 .f32 :=
  broadcastInDim S4096x4096 ![0, 1] bcast_S1x4096_S4096x4096_0_1
    (broadcastInDim S1x4096 ![1] bcast_S4096_S1x4096_1
      (shapeCast S4096
        (broadcastInDim S512x8 ![0, 1] bcast_S1x8_S512x8_0_1
          (shapeCast S1x8 (fun i => FloatOps.ofBits .f32 (lit0 (S8.rowMajor i))) shapeCasts_S8_S1x8))
        shapeCasts_S512x8_S4096))

/-- The result as a term of the arguments and of the masked weight. -/
def out (x : FVec F S2x4096x4096 .f32) (Wm : FVec F S4096x4096 .f32) (bias : FVec F S4096 .f32) : FVec F S2x4096x4096 .f32 :=
  addf (Host.dotGeneral dot_S2x4096x4096_S4096x4096_S2x4096x4096_2_1_01_0_n_n none x Wm)
    (broadcastInDim S2x4096x4096 ![0, 1, 2] bcast_S1x1x4096_S2x4096x4096_0_1_2 (broadcastInDim S1x1x4096 ![2] bcast_S4096_S1x1x4096_2 bias))

/-- On every device, for any float values, from any memory with zero counters: every weakly fair execution of
    @main terminates with the result at `out` of the arguments and of the weight times the mask, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9) = out (m ((c.tc : Thread nD τ).loc main_arg0)) (mulf (m ((c.tc : Thread nD τ).loc main_arg1)) mask) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v9).trans (by after_results; rfl),
      (h c main_arg0).trans (by after_results),
      (h c main_arg1).trans (by after_results),
      (h c main_arg2).trans (by after_results)⟩)
    (run_seq scopedRefs_eq scopedSems_eq defs main (fun _ => ops) main_eq (fun _ => ops_sub) m ρ)

end Cert.ReferenceIdeal.HostRun

end
-- ==== Proof.Spec.lean ====
/-
  What both programs compute, as ONE function of the argument arrays.

  With `x : [2, 4096, 4096]`, a masked weight `Wm : [4096, 4096]` (row `o`, column `d`) and `bias : [4096]`,
  the result at `(b, s, o)` is  `(∑ d, x[b, s, d] · Wm[o, d]) + bias[o]`  on the extended reals.
  The kernel computes the same numbers on the flattened row axis `r = 4096 · b + s`, from the transposed weight
  `Wt[d, o] = Wm[o, d]` and the bias as one row; `flat_eq` says that regrouping the rows back gives `G`.
  Only layout is used: a reshape read through its row-major position, a transpose by swapping its coordinates,
  a change of float format being the identity on the extended reals. No law of arithmetic is needed, so nothing
  here asks the inputs to be finite.
-/
import Idealize.ShloMosaic.PureOps.Ideal
import Idealize.ShloMosaic.Lib.ValueIdx
import Idealize.ShloMosaic.Lib.ValueLayout
import Idealize.ShloMosaic.Lib.Pipeline.Value

noncomputable section

namespace Cert.Spec

open Idealize.ShloMosaic Idealize.ShloMosaic.ValueIdx

abbrev SX : Shape := ⟨3, ![2, 4096, 4096]⟩
abbrev SW : Shape := ⟨2, ![4096, 4096]⟩
abbrev SB : Shape := ⟨1, ![4096]⟩
abbrev SF : Shape := ⟨2, ![8192, 4096]⟩
abbrev SR : Shape := ⟨2, ![1, 4096]⟩

/-- Entry `(b, s, o)` of the result: row `(b, s)` of `x` against row `o` of the masked weight, plus `bias[o]`. -/
def g (x : FVec Ideal SX .f32) (Wm : FVec Ideal SW .f32) (bias : FVec Ideal SB .f32) (b : Fin 2) (s o : Fin 4096) : EReal :=
  (∑ d : Fin 4096, x (ix3 b s d) * Wm (ix2 o d)) + bias (ix1 o)

/-- The whole result array. -/
def G (x : FVec Ideal SX .f32) (Wm : FVec Ideal SW .f32) (bias : FVec Ideal SB .f32) : FVec Ideal SX .f32 :=
  fun i => g x Wm bias (i 0) (i 1) (i 2)

theorem G_apply (x : FVec Ideal SX .f32) (Wm : FVec Ideal SW .f32) (bias : FVec Ideal SB .f32) (b : Fin 2) (s o : Fin 4096) :
    G x Wm bias (ix3 b s o) = g x Wm bias b s o := rfl

/-- Entry `(r, o)` of the flattened product: row `r` of `X` against column `o` of `Wt`, plus the bias row's entry `o`. -/
def gflat (X : FVec Ideal SF .f32) (Wt : FVec Ideal SW .bf16) (B : FVec Ideal SR .f32) (r : Fin 8192) (o : Fin 4096) : EReal :=
  (∑ d : Fin 4096, X (ix2 r d) * Wt (ix2 d o)) + B (ix2 (0 : Fin 1) o)

/-- The flattened product as an array. -/
def Gflat (X : FVec Ideal SF .f32) (Wt : FVec Ideal SW .bf16) (B : FVec Ideal SR .f32) : FVec Ideal SF .f32 :=
  fun i => gflat X Wt B (i 0) (i 1)

theorem Gflat_apply (X : FVec Ideal SF .f32) (Wt : FVec Ideal SW .bf16) (B : FVec Ideal SR .f32) (r : Fin 8192) (o : Fin 4096) :
    Gflat X Wt B (ix2 r o) = gflat X Wt B r o := rfl

/-- Row `4096 · b + s` of the flattened array. -/
def row (b : Fin 2) (s : Fin 4096) : Fin 8192 := ⟨b.val * 4096 + s.val, by have := b.isLt; have := s.isLt; omega⟩

/-- `x` flattened to `[8192, 4096]`, read at row `4096 · b + s`, is `x[b, s, ·]`. -/
theorem flatX_apply (x : FVec Ideal SX .f32) (h : SX.ShapeCasts SF) (b : Fin 2) (s d : Fin 4096) :
    shapeCast SF x h (ix2 (row b s) d) = x (ix3 b s d) :=
  shapeCast_apply x h _ _ (by
    rw [Shape.rowMajor_val_two, Shape.rowMajor_val_three]
    show (b.val * 4096 + s.val) * 4096 + d.val = (b.val * 4096 + s.val) * 4096 + d.val
    rfl)

/-- The flattened result regrouped to `[2, 4096, 4096]`, read at `(b, s, o)`, is its row `4096 · b + s`. -/
theorem unflat_apply (Y : FVec Ideal SF .f32) (h : SF.ShapeCasts SX) (b : Fin 2) (s o : Fin 4096) :
    shapeCast SX Y h (ix3 b s o) = Y (ix2 (row b s) o) :=
  shapeCast_apply Y h _ _ (by
    rw [Shape.rowMajor_val_two, Shape.rowMajor_val_three]
    show (b.val * 4096 + s.val) * 4096 + o.val = (b.val * 4096 + s.val) * 4096 + o.val
    rfl)

/-- THE LAYOUT LEMMA: the flattened product of the flattened `x`, the transposed (and re-formatted) masked weight and the
    bias as a row, regrouped, is `G`. -/
theorem flat_eq (x : FVec Ideal SX .f32) (Wm : FVec Ideal SW .f32) (bias : FVec Ideal SB .f32)
    (hx : SX.ShapeCasts SF) (ht : SW.Transposes [1, 0] SW) (hb : FTy.bits .bf16 < FTy.bits .f32)
    (hr : SB.ShapeCasts SR) (hy : SF.ShapeCasts SX) :
    shapeCast SX (Gflat (shapeCast SF x hx) (truncf .bf16 (transpose SW [1, 0] Wm ht) hb) (shapeCast SR bias hr)) hy
      = G x Wm bias := by
  funext i
  obtain ⟨b, s, o, rfl⟩ : ∃ (b : Fin 2) (s o : Fin 4096), i = ix3 b s o := ⟨i 0, i 1, i 2, eq_ix3 i⟩
  rw [unflat_apply, Gflat_apply, G_apply]
  unfold gflat g
  rw [shapeCast_a_1a_apply]
  refine congrArg (· + bias (ix1 o)) (Finset.sum_congr rfl fun d _ => ?_)
  rw [flatX_apply, truncf_apply, transpose_ix2_apply]

end Cert.Spec

end
-- ==== Proof.RefValue.lean ====
/-
  The reference's result term is `G`: entry `(b, s, o)` of the contraction of `x` with the masked weight over the
  last axis of each is `∑ d, x[b, s, d] · Wm[o, d]` (the host's product on the extended reals is the plain sum), and
  the bias copied along the two leading axes reads `bias[o]` there.
-/
import proofs.«157201_j49443663512204_1_alg».proof.Proof.RefRun
import proofs.«157201_j49443663512204_1_alg».proof.Proof.Spec
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx

/-! ## The contraction's operand indices, axis by axis -/

theorem lhs_0 (i : S2x4096x4096.Idx) (q : dot_S2x4096x4096_S4096x4096_S2x4096x4096_2_1_01_0_n_n.contr.Idx) :
    (dot_S2x4096x4096_S4096x4096_S2x4096x4096_2_1_01_0_n_n.lhsIdx i q 0).val = (i 0).val := by
  unfold DotDims.lhsIdx
  rw [dif_neg (show ¬(0 : Fin S2x4096x4096.rank) ∈ dot_S2x4096x4096_S4096x4096_S2x4096x4096_2_1_01_0_n_n.lhsBatch by decide), dif_pos (show (0 : Fin S2x4096x4096.rank) ∈ dot_S2x4096x4096_S4096x4096_S2x4096x4096_2_1_01_0_n_n.lhsNonContracting by decide)]
  rfl

theorem lhs_1 (i : S2x4096x4096.Idx) (q : dot_S2x4096x4096_S4096x4096_S2x4096x4096_2_1_01_0_n_n.contr.Idx) :
    (dot_S2x4096x4096_S4096x4096_S2x4096x4096_2_1_01_0_n_n.lhsIdx i q 1).val = (i 1).val := by
  unfold DotDims.lhsIdx
  rw [dif_neg (show ¬(1 : Fin S2x4096x4096.rank) ∈ dot_S2x4096x4096_S4096x4096_S2x4096x4096_2_1_01_0_n_n.lhsBatch by decide), dif_pos (show (1 : Fin S2x4096x4096.rank) ∈ dot_S2x4096x4096_S4096x4096_S2x4096x4096_2_1_01_0_n_n.lhsNonContracting by decide)]
  rfl

theorem lhs_2 (i : S2x4096x4096.Idx) (q : dot_S2x4096x4096_S4096x4096_S2x4096x4096_2_1_01_0_n_n.contr.Idx) :
    (dot_S2x4096x4096_S4096x4096_S2x4096x4096_2_1_01_0_n_n.lhsIdx i q 2).val = (q ⟨0, by decide⟩).val :=
  dot_S2x4096x4096_S4096x4096_S2x4096x4096_2_1_01_0_n_n.lhsIdx_val_of_single rfl i q

theorem rhs_0 (i : S2x4096x4096.Idx) (q : dot_S2x4096x4096_S4096x4096_S2x4096x4096_2_1_01_0_n_n.contr.Idx) :
    (dot_S2x4096x4096_S4096x4096_S2x4096x4096_2_1_01_0_n_n.rhsIdx i q 0).val = (i 2).val := by
  unfold DotDims.rhsIdx
  rw [dif_neg (show ¬(0 : Fin S4096x4096.rank) ∈ dot_S2x4096x4096_S4096x4096_S2x4096x4096_2_1_01_0_n_n.rhsBatch by decide), dif_pos (show (0 : Fin S4096x4096.rank) ∈ dot_S2x4096x4096_S4096x4096_S2x4096x4096_2_1_01_0_n_n.rhsNonContracting by decide)]
  rfl

theorem rhs_1 (i : S2x4096x4096.Idx) (q : dot_S2x4096x4096_S4096x4096_S2x4096x4096_2_1_01_0_n_n.contr.Idx) :
    (dot_S2x4096x4096_S4096x4096_S2x4096x4096_2_1_01_0_n_n.rhsIdx i q 1).val = (q ⟨0, by decide⟩).val :=
  dot_S2x4096x4096_S4096x4096_S2x4096x4096_2_1_01_0_n_n.rhsIdx_val_of_single rfl i q

/-! ## The two pieces at an entry -/

/-- Entry `(b, s, o)` of the contraction: row `(b, s)` of `x` against row `o` of the masked weight. -/
theorem dot_at (x : FVec Ideal S2x4096x4096 .f32) (Wm : FVec Ideal S4096x4096 .f32) (b : Fin 2) (s o : Fin 4096) :
    Host.dotGeneral (F := Ideal) dot_S2x4096x4096_S4096x4096_S2x4096x4096_2_1_01_0_n_n none x Wm (ix3 b s o) = ∑ d : Fin 4096, x (ix3 b s d) * Wm (ix2 o d) := by
  simp only [Host.dotGeneral]
  rw [Ideal.dotGeneral_apply, ← Equiv.sum_comp (contrEquiv1 dot_S2x4096x4096_S4096x4096_S2x4096x4096_2_1_01_0_n_n 4096 rfl rfl).symm]
  refine Finset.sum_congr rfl fun d _ => ?_
  have hd := contrEquiv1_symm_val dot_S2x4096x4096_S4096x4096_S2x4096x4096_2_1_01_0_n_n 4096 rfl rfl d
  have el : dot_S2x4096x4096_S4096x4096_S2x4096x4096_2_1_01_0_n_n.lhsIdx (ix3 b s o) ((contrEquiv1 dot_S2x4096x4096_S4096x4096_S2x4096x4096_2_1_01_0_n_n 4096 rfl rfl).symm d) = ix3 b s d := funext fun ax => Fin.ext (by
    match ax with
    | ⟨0, _⟩ => exact lhs_0 _ _
    | ⟨1, _⟩ => exact lhs_1 _ _
    | ⟨2, _⟩ => exact (lhs_2 _ _).trans hd)
  have er : dot_S2x4096x4096_S4096x4096_S2x4096x4096_2_1_01_0_n_n.rhsIdx (ix3 b s o) ((contrEquiv1 dot_S2x4096x4096_S4096x4096_S2x4096x4096_2_1_01_0_n_n 4096 rfl rfl).symm d) = ix2 o d := funext fun ax => Fin.ext (by
    match ax with
    | ⟨0, _⟩ => exact rhs_0 _ _
    | ⟨1, _⟩ => exact (rhs_1 _ _).trans hd)
  rw [el, er]

/-- The bias copied along the two leading axes reads `bias[o]` at `(b, s, o)`. -/
theorem bias_at (bias : FVec Ideal S4096 .f32) (b : Fin 2) (s o : Fin 4096) :
    broadcastInDim S2x4096x4096 ![0, 1, 2] bcast_S1x1x4096_S2x4096x4096_0_1_2 (broadcastInDim S1x1x4096 ![2] bcast_S4096_S1x1x4096_2 bias) (ix3 b s o)
      = bias (ix1 o) := by
  refine (broadcastInDim_apply _ _ _ (ix3 b s o) (ix3 (0 : Fin 1) (0 : Fin 1) o) fun ax => ?_).trans
    (broadcastInDim_apply _ _ bias (ix3 (0 : Fin 1) (0 : Fin 1) o) (ix1 o) fun ax => ?_)
  · match ax with
    | ⟨0, _⟩ => rfl
    | ⟨1, _⟩ => rfl
    | ⟨2, _⟩ =>
      show o.val = if (4096 : ℕ) = 1 then 0 else o.val
      rw [if_neg (by decide)]
  · match ax with
    | ⟨0, _⟩ =>
      show o.val = if (4096 : ℕ) = 1 then 0 else o.val
      rw [if_neg (by decide)]

/-! ## The reference's term is the specification -/

theorem out_eq (x : FVec Ideal S2x4096x4096 .f32) (Wm : FVec Ideal S4096x4096 .f32) (bias : FVec Ideal S4096 .f32) :
    Cert.ReferenceIdeal.HostRun.out (F := Ideal) x Wm bias = Cert.Spec.G x Wm bias := by
  funext i
  obtain ⟨b, s, o, rfl⟩ : ∃ (b : Fin 2) (s o : Fin 4096), i = ix3 b s o := ⟨i 0, i 1, i 2, eq_ix3 i⟩
  rw [Cert.Spec.G_apply]
  unfold Cert.ReferenceIdeal.HostRun.out Cert.Spec.g
  show Host.dotGeneral (F := Ideal) dot_S2x4096x4096_S4096x4096_S2x4096x4096_2_1_01_0_n_n none x Wm (ix3 b s o)
      + broadcastInDim S2x4096x4096 ![0, 1, 2] bcast_S1x1x4096_S2x4096x4096_0_1_2 (broadcastInDim S1x1x4096 ![2] bcast_S4096_S1x1x4096_2 bias) (ix3 b s o) = _
  rw [dot_at, bias_at]

end Cert.ReferenceIdeal.RefValue

end
-- ==== Proof.KernelPayload.lean ====
/-
  What the kernel body stores, read at an entry. The body loads a [512, 4096] block `a` of the flattened `x`, a
  [4096, 512] block `w` of the transposed weight and a [1, 512] piece `r` of the bias row, and stores
  `matmul(a, w) + r` (the row copied down the 512 rows). On the extended reals the change of float format on `a`
  is the identity and the product into a zero accumulator is the plain sum, so entry `(p, q)` of what is stored is
      (∑ d, a[p, d] · w[d, q]) + r[0, q].
-/
import proofs.«157201_j49443663512204_1_alg».proof.Proof.Gen.KernelIdeal.Skeleton
import proofs.«157201_j49443663512204_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx

/-! ## The product's operand indices, axis by axis -/

theorem lhs_0 (i : S512x512.Idx) (q : dot_S512x4096_S4096x512_S512x512_1_0_0_1_n_n.contr.Idx) :
    (dot_S512x4096_S4096x512_S512x512_1_0_0_1_n_n.lhsIdx i q 0).val = (i 0).val := by
  unfold DotDims.lhsIdx
  rw [dif_neg (show ¬(0 : Fin S512x4096.rank) ∈ dot_S512x4096_S4096x512_S512x512_1_0_0_1_n_n.lhsBatch by decide), dif_pos (show (0 : Fin S512x4096.rank) ∈ dot_S512x4096_S4096x512_S512x512_1_0_0_1_n_n.lhsNonContracting by decide)]
  rfl

theorem lhs_1 (i : S512x512.Idx) (q : dot_S512x4096_S4096x512_S512x512_1_0_0_1_n_n.contr.Idx) :
    (dot_S512x4096_S4096x512_S512x512_1_0_0_1_n_n.lhsIdx i q 1).val = (q ⟨0, by decide⟩).val :=
  dot_S512x4096_S4096x512_S512x512_1_0_0_1_n_n.lhsIdx_val_of_single rfl i q

theorem rhs_0 (i : S512x512.Idx) (q : dot_S512x4096_S4096x512_S512x512_1_0_0_1_n_n.contr.Idx) :
    (dot_S512x4096_S4096x512_S512x512_1_0_0_1_n_n.rhsIdx i q 0).val = (q ⟨0, by decide⟩).val :=
  dot_S512x4096_S4096x512_S512x512_1_0_0_1_n_n.rhsIdx_val_of_single rfl i q

theorem rhs_1 (i : S512x512.Idx) (q : dot_S512x4096_S4096x512_S512x512_1_0_0_1_n_n.contr.Idx) :
    (dot_S512x4096_S4096x512_S512x512_1_0_0_1_n_n.rhsIdx i q 1).val = (i 1).val := by
  unfold DotDims.rhsIdx
  rw [dif_neg (show ¬(1 : Fin S4096x512.rank) ∈ dot_S512x4096_S4096x512_S512x512_1_0_0_1_n_n.rhsBatch by decide), dif_pos (show (1 : Fin S4096x512.rank) ∈ dot_S512x4096_S4096x512_S512x512_1_0_0_1_n_n.rhsNonContracting by decide)]
  rfl

/-! ## The block product at an entry -/

/-- Into the zero accumulator, entry `(p, q)` of the block product is row `p` of the left block against column `q`
    of the right one. -/
theorem matmul_at (a : FVec Ideal S512x4096 .bf16) (w : FVec Ideal S4096x512 .bf16) (p q : Fin 512) :
    matmul (F := Ideal) dot_S512x4096_S4096x512_S512x512_1_0_0_1_n_n none a w (constant (F := Ideal) S512x512 .f32 0x00000000#32) (ix2 p q)
      = ∑ d : Fin 4096, a (ix2 p d) * w (ix2 d q) := by
  refine (Ideal.matmul_constant_zero_apply dot_S512x4096_S4096x512_S512x512_1_0_0_1_n_n none a w (ix2 p q)).trans ?_
  rw [← Equiv.sum_comp (contrEquiv1 dot_S512x4096_S4096x512_S512x512_1_0_0_1_n_n 4096 rfl rfl).symm]
  refine Finset.sum_congr rfl fun d _ => ?_
  have hd := contrEquiv1_symm_val dot_S512x4096_S4096x512_S512x512_1_0_0_1_n_n 4096 rfl rfl d
  have el : dot_S512x4096_S4096x512_S512x512_1_0_0_1_n_n.lhsIdx (ix2 p q) ((contrEquiv1 dot_S512x4096_S4096x512_S512x512_1_0_0_1_n_n 4096 rfl rfl).symm d) = ix2 p d := funext fun ax => Fin.ext (by
    match ax with
    | ⟨0, _⟩ => exact lhs_0 _ _
    | ⟨1, _⟩ => exact (lhs_1 _ _).trans hd)
  have er : dot_S512x4096_S4096x512_S512x512_1_0_0_1_n_n.rhsIdx (ix2 p q) ((contrEquiv1 dot_S512x4096_S4096x512_S512x512_1_0_0_1_n_n 4096 rfl rfl).symm d) = ix2 d q := funext fun ax => Fin.ext (by
    match ax with
    | ⟨0, _⟩ => exact (rhs_0 _ _).trans hd
    | ⟨1, _⟩ => exact rhs_1 _ _)
  rw [el, er]

/-! ## What the body stores -/

/-- The stored value with its identity reshapes dropped. -/
theorem pay_eq (x0 : FVec Ideal S512x4096 .f32) (x1 : FVec Ideal S4096x512 .bf16) (x2 : FVec Ideal S1x512 .f32) :
    k0_pay1 (F := Ideal) x0 x1 x2
      = addf (matmul (F := Ideal) dot_S512x4096_S4096x512_S512x512_1_0_0_1_n_n none (truncf .bf16 x0 bitsLt_bf16_f32) x1 (constant (F := Ideal) S512x512 .f32 0x00000000#32))
          (broadcastTo S512x512 x2 broadcasts_S1x512_S512x512) := by
  unfold k0_pay1
  simp only [shapeCast_self]

/-- Entry `(p, q)` of what the body stores. -/
theorem pay_at (x0 : FVec Ideal S512x4096 .f32) (x1 : FVec Ideal S4096x512 .bf16) (x2 : FVec Ideal S1x512 .f32) (p q : Fin 512) :
    k0_pay1 (F := Ideal) x0 x1 x2 (ix2 p q) = (∑ d : Fin 4096, x0 (ix2 p d) * x1 (ix2 d q)) + x2 (ix2 (0 : Fin 1) q) := by
  rw [pay_eq]
  show matmul (F := Ideal) dot_S512x4096_S4096x512_S512x512_1_0_0_1_n_n none (truncf .bf16 x0 bitsLt_bf16_f32) x1 (constant (F := Ideal) S512x512 .f32 0x00000000#32) (ix2 p q)
      + broadcastTo S512x512 x2 broadcasts_S1x512_S512x512 (ix2 p q) = _
  rw [matmul_at, broadcastTo_1b_ab_apply]
  rfl

/-- The stored entry against the flattened product: if the left block's row `j 0` is row `i 0` of `X`, the right block's
    column `j 1` is column `i 1` of `Wt` and the bias piece's entry `j 1` is entry `i 1` of the bias row, then entry `j` of
    what the body stores is entry `i` of the flattened product. -/
theorem block_entry (x0 : FVec Ideal S512x4096 .f32) (x1 : FVec Ideal S4096x512 .bf16) (x2 : FVec Ideal S1x512 .f32)
    (X : FVec Ideal S8192x4096 .f32) (Wt : FVec Ideal S4096x4096 .bf16) (B : FVec Ideal S1x4096 .f32)
    (j : S512x512.Idx) (i : S8192x4096.Idx)
    (h0 : ∀ d : Fin 4096, x0 (ix2 (j 0) d) = X (ix2 (i 0) d))
    (h1 : ∀ d : Fin 4096, x1 (ix2 d (j 1)) = Wt (ix2 d (i 1)))
    (h2 : x2 (ix2 (0 : Fin 1) (j 1)) = B (ix2 (0 : Fin 1) (i 1))) :
    k0_pay1 (F := Ideal) x0 x1 x2 j = Cert.Spec.Gflat X Wt B i := by
  have ej : j = ix2 (j 0) (j 1) := eq_ix2 j
  refine (congrArg (k0_pay1 (F := Ideal) x0 x1 x2) ej).trans ((pay_at x0 x1 x2 (j 0) (j 1)).trans ?_)
  show _ = Cert.Spec.gflat X Wt B (i 0) (i 1)
  unfold Cert.Spec.gflat
  rw [h2]
  exact congrArg (· + B (ix2 (0 : Fin 1) (i 1))) (Finset.sum_congr rfl fun d _ => by rw [h0 d, h1 d])

end Cert.KernelIdeal.Payload

end
-- ==== Proof.KernelValue.lean ====
/-
  The kernel program's run, read as values, on the extended reals.

  Before the region the host lines build the mask, multiply the weight by it, transpose the product and change its
  float format (`Wt`), flatten `x` to [8192, 4096] (`X`) and lay the bias out as one row (`B`). The region has a
  16 × 8 grid; point (i, j) reads rows 512 i … 512 i + 511 of `X`, columns 512 j … 512 j + 511 of `Wt` and of `B`, and
  writes block (i, j) of the [8192, 4096] result. So what a point writes back is that block of ONE array, the flattened
  product `Gflat X Wt B`; the 128 blocks tile the result, which therefore ends holding `Gflat X Wt B`; the host line
  after the region regroups its rows, and by the layout lemma the program's result is `G` of the arguments and of the
  weight times the mask.
-/
import proofs.«157201_j49443663512204_1_alg».proof.Proof.Gen.KernelIdeal.Frame
import proofs.«157201_j49443663512204_1_alg».proof.Proof.KernelPayload
import proofs.«157201_j49443663512204_1_alg».proof.Proof.Spec
import Idealize.ShloMosaic.Lib.Pipeline.Value
import Idealize.ShloMosaic.Lib.StableHlo.Run
import Idealize.ShloMosaic.Lib.Tactic

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays the region finds -/

/-- The mask: the eight-entry pattern laid 512 times along the columns, the same in every row. -/
def mask : FVec Ideal S4096x4096 .f32 :=
  broadcastInDim S4096x4096 ![0, 1] bcast_S1x4096_S4096x4096_0_1
    (broadcastInDim S1x4096 ![1] bcast_S4096_S1x4096_1
      (shapeCast S4096
        (broadcastInDim S512x8 ![0, 1] bcast_S1x8_S512x8_0_1
          (shapeCast S1x8 (fun i => FloatOps.ofBits (F := Ideal) .f32 (lit0 (S8.rowMajor i))) shapeCasts_S8_S1x8))
        shapeCasts_S512x8_S4096))

/-- The flattened `x`. -/
abbrev X (c : Dev nD) : FVec Ideal S8192x4096 .f32 :=
  shapeCast S8192x4096 (m ((c : Thread nD τ).loc main_arg0)) shapeCasts_S2x4096x4096_S8192x4096
/-- The masked weight, transposed, in the product's input format. -/
abbrev Wt (c : Dev nD) : FVec Ideal S4096x4096 .bf16 :=
  truncf .bf16 (transpose S4096x4096 [1, 0] (mulf (m ((c : Thread nD τ).loc main_arg1)) mask) transposes_S4096x4096_S4096x4096_1_0) bitsLt_bf16_f32
/-- The bias as one row. -/
abbrev B (c : Dev nD) : FVec Ideal S1x4096 .f32 :=
  shapeCast S1x4096 (m ((c : Thread nD τ).loc main_arg2)) shapeCasts_S4096_S1x4096

theorem V_v8 (c : Dev nD) : (V m c main_v8 : FVec Ideal S8192x4096 .f32) = X m c := by
  show StableHlo.after hostOps0 (fun b => m (c, b)) (Proc.devRef .tc main_v8) = _
  after_results
  rfl

theorem V_v7 (c : Dev nD) : (V m c main_v7 : FVec Ideal S4096x4096 .bf16) = Wt m c := by
  show StableHlo.after hostOps0 (fun b => m (c, b)) (Proc.devRef .tc main_v7) = _
  after_results
  rfl

theorem V_v9 (c : Dev nD) : (V m c main_v9 : FVec Ideal S1x4096 .f32) = B m c := by
  show StableHlo.after hostOps0 (fun b => m (c, b)) (Proc.devRef .tc main_v9) = _
  after_results
  rfl

/-! ## The index maps, decided over the grid -/

theorem hz : (![0, 0] : Fin 2 → Nat) = fun _ => 0 := funext fun a => by fin_cases a <;> rfl

/-- The left operand's block moves with the output's row block and spans every column; the right operand's and the
    bias row's blocks move with the output's column block; the output's block indices stay in their ranges. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 15 ∧ win0_3.index t (1 : Fin 2) ≤ 7 :=
  (by decide +kernel : ∀ t : Fin grid0.N, _)

/-- Every block of the result is some point's. -/
theorem idx_onto : ∀ (q0 : Fin 16) (q1 : Fin 8), ∃ t : Fin cfg0.N, win0_3.index t = ![q0.val, q1.val] :=
  (by decide +kernel : ∀ (q0 : Fin 16) (q1 : Fin 8), ∃ t : Fin grid0.N, win0_3.index t = ![q0.val, q1.val])

/-! ## Each input block as entries of its array -/

/-- Row `p` of the left block at point `t` is row `512 · (the output's row block) + p` of the flattened `x`. -/
theorem iblk0_apply (c : Dev nD) (t : Fin cfg0.N) (y : S512x4096.Idx) (k : S8192x4096.Idx)
    (hk0 : (k 0).val = win0_3.index t (0 : Fin 2) * 512 + (y 0).val) (hk1 : (k 1).val = (y 1).val) :
    (iblk m c 0 t : FVec Ideal S512x4096 .f32) y = (V m c main_v8 : FVec Ideal S8192x4096 .f32) k := by
  obtain ⟨e0, e1, -⟩ := idx_facts t
  unfold iblk
  rw [View.read_apply]
  show V m c main_v8 (((cfg0.win 0).blk t).view.emb y) = V m c main_v8 k
  refine congrArg (V m c main_v8) (funext fun a => Fin.ext ?_)
  match a with
  | ⟨0, _⟩ => show win0_0.index t (0 : Fin 2) * 512 + 1 * (y 0).val = (k 0).val; rw [e0, hk0]; omega
  | ⟨1, _⟩ => show win0_0.index t (1 : Fin 2) * 4096 + 1 * (y 1).val = (k 1).val; rw [e1, hk1]; omega

/-- Column `q` of the right block at point `t` is column `512 · (the output's column block) + q` of the transposed weight. -/
theorem iblk1_apply (c : Dev nD) (t : Fin cfg0.N) (y : S4096x512.Idx) (k : S4096x4096.Idx)
    (hk0 : (k 0).val = (y 0).val) (hk1 : (k 1).val = win0_3.index t (1 : Fin 2) * 512 + (y 1).val) :
    (iblk m c 1 t : FVec Ideal S4096x512 .bf16) y = (V m c main_v7 : FVec Ideal S4096x4096 .bf16) k := by
  obtain ⟨-, -, e0, e1, -⟩ := idx_facts t
  unfold iblk
  rw [View.read_apply]
  show V m c main_v7 (((cfg0.win 1).blk t).view.emb y) = V m c main_v7 k
  refine congrArg (V m c main_v7) (funext fun a => Fin.ext ?_)
  match a with
  | ⟨0, _⟩ => show win0_1.index t (0 : Fin 2) * 4096 + 1 * (y 0).val = (k 0).val; rw [e0, hk0]; omega
  | ⟨1, _⟩ => show win0_1.index t (1 : Fin 2) * 512 + 1 * (y 1).val = (k 1).val; rw [e1, hk1]; omega

/-- Entry `q` of the bias piece at point `t` is entry `512 · (the output's column block) + q` of the bias row. -/
theorem iblk2_apply (c : Dev nD) (t : Fin cfg0.N) (y : S1x512.Idx) (k : S1x4096.Idx)
    (hk0 : (k 0).val = (y 0).val) (hk1 : (k 1).val = win0_3.index t (1 : Fin 2) * 512 + (y 1).val) :
    (iblk m c 2 t : FVec Ideal S1x512 .f32) y = (V m c main_v9 : FVec Ideal S1x4096 .f32) k := by
  obtain ⟨-, -, -, -, e0, e1, -⟩ := idx_facts t
  unfold iblk
  rw [View.read_apply]
  show V m c main_v9 (((cfg0.win 2).blk t).view.emb y) = V m c main_v9 k
  refine congrArg (V m c main_v9) (funext fun a => Fin.ext ?_)
  match a with
  | ⟨0, _⟩ => show win0_2.index t (0 : Fin 2) * 1 + 1 * (y 0).val = (k 0).val; rw [e0, hk0]; omega
  | ⟨1, _⟩ => show win0_2.index t (1 : Fin 2) * 512 + 1 * (y 1).val = (k 1).val; rw [e1, hk1]; omega

/-! ## What a point writes back, and the array after the run -/

/-- The flattened product of the arrays the region finds. -/
abbrev flat (c : Dev nD) : FVec Ideal S8192x4096 .f32 :=
  Cert.Spec.Gflat (V m c main_v8 : FVec Ideal S8192x4096 .f32) (V m c main_v7 : FVec Ideal S4096x4096 .bf16) (V m c main_v9 : FVec Ideal S1x4096 .f32)

/-- WHAT POINT `t` WRITES BACK is block `t` of the flattened product. -/
theorem flushed_eq (c : Dev nD) (t : Fin cfg0.N) :
    (dats m 0 c).flushed 3 t = ((cfg0.win 3).blk t).view.read (Elt Ideal) (flat m c) := by
  show (cfg0.win 3).cut (grid0.coords t) ((dats m 0 c).after 3 t) = _
  rw [after0_3]
  unfold out0_3
  rw [View.canon_unit_zero hz]
  simp only [View.ld_unit_zero (S := S512x4096) hz, View.ld_unit_zero (S := S4096x512) hz, View.ld_unit_zero (S := S1x512) hz]
  funext j
  rw [View.read_apply]
  refine Payload.block_entry _ _ _ _ _ _ j (((cfg0.win 3).blk t).view.emb j)
    (fun d => iblk0_apply m c t _ _ ?_ ?_) (fun d => iblk1_apply m c t _ _ ?_ ?_) (iblk2_apply m c t _ _ ?_ ?_)
  · show win0_3.index t (0 : Fin 2) * 512 + 1 * (j 0).val = win0_3.index t (0 : Fin 2) * 512 + (j 0).val; omega
  · rfl
  · rfl
  · show win0_3.index t (1 : Fin 2) * 512 + 1 * (j 1).val = win0_3.index t (1 : Fin 2) * 512 + (j 1).val; omega
  · rfl
  · show win0_3.index t (1 : Fin 2) * 512 + 1 * (j 1).val = win0_3.index t (1 : Fin 2) * 512 + (j 1).val; omega

/-- An index of the result is in point `t`'s block iff each coordinate is in the block's range on its axis. -/
theorem mem_blk (t : Fin cfg0.N) (i : S8192x4096.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v10).slice (win0_3.rect t)).set ↔ _
  rw [View.set_slice_whole, Rect.mem_set_unit]
  exact Iff.rfl

/-- The 128 blocks tile the result: every index is in the block of the point at its row block and column block. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := idx_onto ⟨(i 0).val / 512, by omega⟩ ⟨(i 1).val / 512, by omega⟩
  have q0 : win0_3.index t (0 : Fin 2) = (i 0).val / 512 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-- THE RESULT ARRAY after the region is the flattened product. -/
theorem final (c : Dev nD) : (dats m 0 c).arrAt 3 cfg0.N = flat m c :=
  (dats m 0 c).arrAt_eq_of_cover 3 (flat m c) (fun t _ => flushed_eq m c t) cover

/-! ## The host line after the region, and the run -/

/-- The program's result: the flattened product regrouped to [2, 4096, 4096], which is `G`. -/
theorem tail_v11 (c : Dev nD) :
    (Pipeline.afterTail₀ cfgs (dats m) 0 (V0 m) [hostOps1] c main_v11 : FVec Ideal S2x4096x4096 .f32)
      = Cert.Spec.G (m ((c : Thread nD τ).loc main_arg0)) (mulf (m ((c : Thread nD τ).loc main_arg1)) mask) (m ((c : Thread nD τ).loc main_arg2)) := by
  unfold Pipeline.afterTail₀
  show StableHlo.after hostOps1 _ (Proc.devRef .tc main_v11) = _
  after_results
  show shapeCast S2x4096x4096 (Pipeline.withArrays _ c _ _ (Proc.devRef .tc main_v10)) shapeCasts_S8192x4096_S2x4096x4096 = _
  rw [show Pipeline.withArrays (cfgs 0).spec c (V0 m c) (fun w => (dats m 0 c).arrAt w (cfgs 0).N) (Proc.devRef .tc main_v10)
        = flat m c from (Pipeline.withArrays_arr spec0 launch0.win.arr_inj c _ _ 3).trans (final m c)]
  unfold flat
  rw [V_v8, V_v7, V_v9]
  exact Cert.Spec.flat_eq _ _ _ _ _ _ _ _

/-- The frame run re-posted: the result at `G` of the arguments and of the weight times the mask, the arguments unchanged. -/
theorem run : θ_run defs (onTc (τ := τ) (main (F := Ideal))) ⟨m, fun _ => 0, ρ⟩ fun r => ∀ c : Dev nD,
      r.2.mem ((c.tc : Thread nD τ).loc main_v11) = Cert.Spec.G (m ((c.tc : Thread nD τ).loc main_arg0)) (mulf (m ((c.tc : Thread nD τ).loc main_arg1)) mask) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v11 (Pipeline.mem_restRefs_of main_v11 (by decide) (by decide))).trans (tail_v11 m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.KValue

end
-- ==== Proof.lean ====
/-
  A structured 2:8 sparse matmul with bias, as a dense matmul on masked weights: the proof of `Cert.Claim`.

  Both programs multiply the weight `W[o, d]` by the same 0/1 mask (the pattern 1, 0, 1, 0, 0, 0, 0, 0 repeated along
  `d`) and compute, on the extended reals,
        out[b, s, o] = (∑ d, x[b, s, d] · (W[o, d] · mask[d])) + bias[o].
  The reference does it with one contraction over `d`. The kernel flattens `(b, s)` to one row axis, transposes the
  masked weight, changes float formats (the identity on the extended reals), computes each 512 × 512 block of the
  flattened result as a block product into a zero accumulator plus the bias row, and regroups the rows. The two
  sides are the same sum, term by term and in the same order of factors, so no law of arithmetic beyond reading
  each layout operation at an index is used, and the inputs' finiteness is never opened.

  The three frames: the two kernel programs' are the generated ones; the reference's is its run with the result
  dropped. The idealization rewrote nothing, so `preserves` is trivial. `algebraic`: both runs end at `Spec.G` of the
  arguments and of the weight times the mask, the two programs' masks being one array.
-/
import proofs.«157201_j49443663512204_1_alg».proof.Defs
import proofs.«157201_j49443663512204_1_alg».proof.Proof.Gen.Kernel
import proofs.«157201_j49443663512204_1_alg».proof.Proof.Gen.Kernel.Skeleton
import proofs.«157201_j49443663512204_1_alg».proof.Proof.Gen.Kernel.Launch
import proofs.«157201_j49443663512204_1_alg».proof.Proof.Gen.Kernel.Points
import proofs.«157201_j49443663512204_1_alg».proof.Proof.Gen.Kernel.Frame
import proofs.«157201_j49443663512204_1_alg».proof.Proof.Gen.KernelIdeal
import proofs.«157201_j49443663512204_1_alg».proof.Proof.Gen.KernelIdeal.Skeleton
import proofs.«157201_j49443663512204_1_alg».proof.Proof.Gen.KernelIdeal.Launch
import proofs.«157201_j49443663512204_1_alg».proof.Proof.Gen.KernelIdeal.Points
import proofs.«157201_j49443663512204_1_alg».proof.Proof.Gen.KernelIdeal.Frame
import proofs.«157201_j49443663512204_1_alg».proof.Proof.Gen.ReferenceIdeal
import proofs.«157201_j49443663512204_1_alg».proof.Proof.Gen.Pre_finite_inputs
import proofs.«157201_j49443663512204_1_alg».proof.Proof.RefRun
import proofs.«157201_j49443663512204_1_alg».proof.Proof.RefValue
import proofs.«157201_j49443663512204_1_alg».proof.Proof.KernelValue
import Idealize.ShloMosaic.Adequacy
import Idealize.ShloMosaic.Init

noncomputable section

namespace Cert.Proof

open Idealize.ShloMosaic Idealize.SL.Sem

/-- The two programs print the same eight-entry pattern. -/
theorem lit_eq : Cert.KernelIdeal.lit0 = Cert.ReferenceIdeal.lit0 := funext fun i => by fin_cases i <;> rfl

/-- So their masks are one array: the same layout operations of the same pattern. -/
theorem mask_eq : Cert.KernelIdeal.KValue.mask = Cert.ReferenceIdeal.HostRun.mask (F := Ideal) := by
  unfold Cert.KernelIdeal.KValue.mask Cert.ReferenceIdeal.HostRun.mask
  rw [lit_eq]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.HostRun.run (F := Ideal) m ρ)

theorem preserves : Cert.preserves_Kernel_KernelIdeal := trivial

/-- Both runs end with the result at `Spec.G` of the arguments and of the weight times the mask. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2.1, (hagree c).2.2, Cert.ReferenceIdeal.RefValue.out_eq, mask_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
